-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x128x256x4 : Shape := ⟨4, ![2, 128, 256, 4]⟩
abbrev S_ : Shape := ⟨0, ![]⟩

class Facts : Prop where
  bcast_S_S2x128x256x4 : S_.BroadcastsInDim S2x128x256x4 (![] : Fin 0 → Fin S2x128x256x4.rank)
  reducesTo_S2x128x256x4_S_d0_1_2_3 : S2x128x256x4.ReducesTo [0, 1, 2, 3] S_
  h_S_ : 0 < S_.numel

variable [Facts]

def fn {F : FTy → Type} [FloatOps F] (main_arg0 : FVec F S2x128x256x4 .f32) (main_arg1 : FVec F S2x128x256x4 .f32) : IVec S_ 1 :=
  let main_v0 : FVec F S2x128x256x4 .f32 := Host.absf main_arg0
  let main_cst : FVec F S_ .f32 := constant S_ .f32 0x7F800000#32
  let main_v1 : FVec F S2x128x256x4 .f32 := broadcastInDim S2x128x256x4 ![] bcast_S_S2x128x256x4 main_cst
  let main_v2 : IVec S2x128x256x4 1 := cmpf .olt main_v0 main_v1
  let main_c : IVec S_ 1 := constantI S_ 1 1#1
  let main_v3 : IVec S_ 1 := (fun x v => Host.reduce IntOp.andi x v reducesTo_S2x128x256x4_S_d0_1_2_3 h_S_) main_v2 main_c
  let main_v4 : FVec F S2x128x256x4 .f32 := Host.absf main_arg1
  let main_cst_0 : FVec F S_ .f32 := constant S_ .f32 0x7F800000#32
  let main_v5 : FVec F S2x128x256x4 .f32 := broadcastInDim S2x128x256x4 ![] bcast_S_S2x128x256x4 main_cst_0
  let main_v6 : IVec S2x128x256x4 1 := cmpf .olt main_v4 main_v5
  let main_c_1 : IVec S_ 1 := constantI S_ 1 1#1
  let main_v7 : IVec S_ 1 := (fun x v => Host.reduce IntOp.andi x v reducesTo_S2x128x256x4_S_d0_1_2_3 h_S_) main_v6 main_c_1
  let main_v8 : IVec S_ 1 := andi main_v3 main_v7
  main_v8
-- ==== Kernel.lean ====
abbrev S2x128x256x4 : Shape := ⟨4, ![2, 128, 256, 4]⟩
abbrev S1x128x256x3 : Shape := ⟨4, ![1, 128, 256, 3]⟩
abbrev S128x256x3 : Shape := ⟨3, ![128, 256, 3]⟩
abbrev S128x3x256 : Shape := ⟨3, ![128, 3, 256]⟩
abbrev S1x1 : Shape := ⟨2, ![1, 1]⟩
abbrev S16x3x256 : Shape := ⟨3, ![16, 3, 256]⟩
abbrev S16x256x256 : Shape := ⟨3, ![16, 256, 256]⟩
abbrev S16x1x256 : Shape := ⟨3, ![16, 1, 256]⟩
abbrev S16x256 : Shape := ⟨2, ![16, 256]⟩
abbrev S16x256x1 : Shape := ⟨3, ![16, 256, 1]⟩
abbrev S1x16x256 : Shape := ⟨3, ![1, 16, 256]⟩
abbrev S1 : Shape := ⟨1, ![1]⟩
abbrev S1x1x1 : Shape := ⟨3, ![1, 1, 1]⟩
abbrev S_ : Shape := ⟨0, ![]⟩

abbrev nBuf : Space → Nat
  | .hbm => 16
  | .vmem => 9
  | .smem => 0
  | _ => 0

abbrev bufTy : (tb : Table) → Fin (tcTables nBuf tb) → BufTy
  | .hbm, ⟨0, _⟩ => ⟨S2x128x256x4, .f32⟩
  | .hbm, ⟨1, _⟩ => ⟨S2x128x256x4, .f32⟩
  | .hbm, ⟨2, _⟩ => ⟨S1x128x256x3, .f32⟩
  | .hbm, ⟨3, _⟩ => ⟨S128x256x3, .f32⟩
  | .hbm, ⟨4, _⟩ => ⟨S128x3x256, .f32⟩
  | .hbm, ⟨5, _⟩ => ⟨S1x128x256x3, .f32⟩
  | .hbm, ⟨6, _⟩ => ⟨S128x256x3, .f32⟩
  | .hbm, ⟨7, _⟩ => ⟨S128x3x256, .f32⟩
  | .hbm, ⟨8, _⟩ => ⟨S1x128x256x3, .f32⟩
  | .hbm, ⟨9, _⟩ => ⟨S128x256x3, .f32⟩
  | .hbm, ⟨10, _⟩ => ⟨S128x3x256, .f32⟩
  | .hbm, ⟨11, _⟩ => ⟨S1x128x256x3, .f32⟩
  | .hbm, ⟨12, _⟩ => ⟨S128x256x3, .f32⟩
  | .hbm, ⟨13, _⟩ => ⟨S128x3x256, .f32⟩
  | .hbm, ⟨14, _⟩ => ⟨S1x1, .f32⟩
  | .hbm, ⟨15, _⟩ => ⟨S_, .f32⟩
  | .local _ .vmem, ⟨0, _⟩ => ⟨S16x3x256, .f32⟩
  | .local _ .vmem, ⟨1, _⟩ => ⟨S16x3x256, .f32⟩
  | .local _ .vmem, ⟨2, _⟩ => ⟨S16x3x256, .f32⟩
  | .local _ .vmem, ⟨3, _⟩ => ⟨S16x3x256, .f32⟩
  | .local _ .vmem, ⟨4, _⟩ => ⟨S16x3x256, .f32⟩
  | .local _ .vmem, ⟨5, _⟩ => ⟨S16x3x256, .f32⟩
  | .local _ .vmem, ⟨6, _⟩ => ⟨S16x3x256, .f32⟩
  | .local _ .vmem, ⟨7, _⟩ => ⟨S16x3x256, .f32⟩
  | .local _ .vmem, ⟨8, _⟩ => ⟨S1x1, .f32⟩
  | _, _ => ⟨S2x128x256x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  slices_S2x128x256x4_S1x128x256x3_0_0_0_1 : S2x128x256x4.Slices ![0, 0, 0, 1] S1x128x256x3
  shapeCasts_S1x128x256x3_S128x256x3 : S1x128x256x3.ShapeCasts S128x256x3
  transposes_S128x256x3_S128x3x256_0_2_1 : S128x256x3.Transposes [0, 2, 1] S128x3x256
  slices_S2x128x256x4_S1x128x256x3_1_0_0_1 : S2x128x256x4.Slices ![1, 0, 0, 1] S1x128x256x3
  inb_S16x3x256_S16x3x256_0_0_0 : ∀ a, (![0, 0, 0] : Fin 3 → Nat) a + S16x3x256.size a ≤ S16x3x256.size a
  h_S16x3x256 : 0 < S16x3x256.numel
  shapeCasts_S16x3x256_S16x3x256 : S16x3x256.ShapeCasts S16x3x256
  slices_S16x3x256_o0_0_0_S16x1x256 : S16x3x256.Slices ![0, 0, 0] S16x1x256
  shapeCasts_S16x1x256_S16x256 : S16x1x256.ShapeCasts S16x256
  shapeCasts_S16x256_S16x256x1 : S16x256.ShapeCasts S16x256x1
  shapeCasts_S16x256_S16x1x256 : S16x256.ShapeCasts S16x1x256
  broadcasts_S16x256x1_S16x256x256 : S16x256x1.Broadcasts S16x256x256
  broadcasts_S16x1x256_S16x256x256 : S16x1x256.Broadcasts S16x256x256
  slices_S16x3x256_o0_1_0_S16x1x256 : S16x3x256.Slices ![0, 1, 0] S16x1x256
  slices_S16x3x256_o0_2_0_S16x1x256 : S16x3x256.Slices ![0, 2, 0] S16x1x256
  reduces_S16x256x256_S16x256 : S16x256x256.Reduces [2] S16x256
  reduces_S16x256x256_S16x256_2 : S16x256x256.Reduces [1] S16x256
  shapeCasts_S16x256_S1x16x256 : S16x256.ShapeCasts S1x16x256
  reduces_S1x16x256_S1 : S1x16x256.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x3x256.size a ≤ S128x3x256.size a
  hwx0_0 : ∀ i : grid0.Coords, EltTy.bits .f32 = 32 ∨ (Rect.block (s := S128x3x256) S16x3x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x3x256.size a ≤ S128x3x256.size a
  hwx0_1 : ∀ i : grid0.Coords, EltTy.bits .f32 = 32 ∨ (Rect.block (s := S128x3x256) S16x3x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x3x256.size a ≤ S128x3x256.size a
  hwx0_2 : ∀ i : grid0.Coords, EltTy.bits .f32 = 32 ∨ (Rect.block (s := S128x3x256) S16x3x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x3x256.size a ≤ S128x3x256.size a
  hwx0_3 : ∀ i : grid0.Coords, EltTy.bits .f32 = 32 ∨ (Rect.block (s := S128x3x256) S16x3x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v2) S16x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S16x3x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S16x3x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S16x3x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x128x256x4 : Shape := ⟨4, ![2, 128, 256, 4]⟩
abbrev S2x128x256x1x4 : Shape := ⟨5, ![2, 128, 256, 1, 4]⟩
abbrev S2x128x1x256x4 : Shape := ⟨5, ![2, 128, 1, 256, 4]⟩
abbrev S2x128x256x256x4 : Shape := ⟨5, ![2, 128, 256, 256, 4]⟩
abbrev S1x128x256x256x4 : Shape := ⟨5, ![1, 128, 256, 256, 4]⟩
abbrev S128x256x256x4 : Shape := ⟨4, ![128, 256, 256, 4]⟩
abbrev S128x256x256x3 : Shape := ⟨4, ![128, 256, 256, 3]⟩
abbrev S_ : Shape := ⟨0, ![]⟩
abbrev S128x256x256 : Shape := ⟨3, ![128, 256, 256]⟩
abbrev S128x256 : Shape := ⟨2, ![128, 256]⟩

abbrev nBuf : Space → Nat
  | .hbm => 28
  | .vmem => 0
  | .smem => 0
  | _ => 0

abbrev bufTy : (tb : Table) → Fin (tcTables nBuf tb) → BufTy
  | .hbm, ⟨0, _⟩ => ⟨S2x128x256x4, .f32⟩
  | .hbm, ⟨1, _⟩ => ⟨S2x128x256x4, .f32⟩
  | .hbm, ⟨2, _⟩ => ⟨S2x128x256x1x4, .f32⟩
  | .hbm, ⟨3, _⟩ => ⟨S2x128x1x256x4, .f32⟩
  | .hbm, ⟨4, _⟩ => ⟨S2x128x256x256x4, .f32⟩
  | .hbm, ⟨5, _⟩ => ⟨S2x128x256x256x4, .f32⟩
  | .hbm, ⟨6, _⟩ => ⟨S2x128x256x256x4, .f32⟩
  | .hbm, ⟨7, _⟩ => ⟨S1x128x256x256x4, .f32⟩
  | .hbm, ⟨8, _⟩ => ⟨S128x256x256x4, .f32⟩
  | .hbm, ⟨9, _⟩ => ⟨S1x128x256x256x4, .f32⟩
  | .hbm, ⟨10, _⟩ => ⟨S128x256x256x4, .f32⟩
  | .hbm, ⟨11, _⟩ => ⟨S128x256x256x4, .f32⟩
  | .hbm, ⟨12, _⟩ => ⟨S1x128x256x256x4, .f32⟩
  | .hbm, ⟨13, _⟩ => ⟨S128x256x256x4, .f32⟩
  | .hbm, ⟨14, _⟩ => ⟨S1x128x256x256x4, .f32⟩
  | .hbm, ⟨15, _⟩ => ⟨S128x256x256x4, .f32⟩
  | .hbm, ⟨16, _⟩ => ⟨S128x256x256x4, .f32⟩
  | .hbm, ⟨17, _⟩ => ⟨S128x256x256x4, .f32⟩
  | .hbm, ⟨18, _⟩ => ⟨S128x256x256x3, .f32⟩
  | .hbm, ⟨19, _⟩ => ⟨S_, .f32⟩
  | .hbm, ⟨20, _⟩ => ⟨S128x256x256, .f32⟩
  | .hbm, ⟨21, _⟩ => ⟨S_, .f32⟩
  | .hbm, ⟨22, _⟩ => ⟨S128x256, .f32⟩
  | .hbm, ⟨23, _⟩ => ⟨S_, .f32⟩
  | .hbm, ⟨24, _⟩ => ⟨S128x256, .f32⟩
  | .hbm, ⟨25, _⟩ => ⟨S128x256, .f32⟩
  | .hbm, ⟨26, _⟩ => ⟨S_, .f32⟩
  | .hbm, ⟨27, _⟩ => ⟨S_, .f32⟩
  | _, _ => ⟨S2x128x256x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩

abbrev nD : Nat := 1
abbrev τ : Topo := Topo.v7x

variable {F : FTy → Type} [FloatOps F]

class Facts₀ : Prop where
  bcast_S2x128x256x4_S2x128x256x1x4_0_1_2_4 : S2x128x256x4.BroadcastsInDim S2x128x256x1x4 (![0, 1, 2, 4] : Fin 4 → Fin S2x128x256x1x4.rank)
  bcast_S2x128x256x4_S2x128x1x256x4_0_1_3_4 : S2x128x256x4.BroadcastsInDim S2x128x1x256x4 (![0, 1, 3, 4] : Fin 4 → Fin S2x128x1x256x4.rank)
  bcast_S2x128x256x1x4_S2x128x256x256x4_0_1_2_3_4 : S2x128x256x1x4.BroadcastsInDim S2x128x256x256x4 (![0, 1, 2, 3, 4] : Fin 5 → Fin S2x128x256x256x4.rank)
  bcast_S2x128x1x256x4_S2x128x256x256x4_0_1_2_3_4 : S2x128x1x256x4.BroadcastsInDim S2x128x256x256x4 (![0, 1, 2, 3, 4] : Fin 5 → Fin S2x128x256x256x4.rank)
  slices_S2x128x256x256x4_S1x128x256x256x4_0_0_0_0_0 : S2x128x256x256x4.Slices ![0, 0, 0, 0, 0] S1x128x256x256x4
  shapeCasts_S1x128x256x256x4_S128x256x256x4 : S1x128x256x256x4.ShapeCasts S128x256x256x4
  slices_S2x128x256x256x4_S1x128x256x256x4_1_0_0_0_0 : S2x128x256x256x4.Slices ![1, 0, 0, 0, 0] S1x128x256x256x4
  slices_S128x256x256x4_S128x256x256x3_0_0_0_1 : S128x256x256x4.Slices ![0, 0, 0, 1] S128x256x256x3
  reducesTo_S128x256x256x3_S128x256x256_d3 : S128x256x256x3.ReducesTo [3] S128x256x256
  h_S_ : 0 < S_.numel
  reducesTo_S128x256x256_S128x256_d2 : S128x256x256.ReducesTo [2] S128x256
  reducesTo_S128x256x256_S128x256_d1 : S128x256x256.ReducesTo [1] S128x256
  reducesTo_S128x256_S_d0_1 : S128x256.ReducesTo [0, 1] S_

variable [Facts₀]

class Facts : Prop extends Facts₀ where

variable [Facts]
-- ==== Proof.Spec.lean ====
/-
  The mathematics of the certificate, free of either program.

  Two arrays `p`, `q` of shape [2, 128, 256, 4] hold, for each of 128 batches, 256 points whose four channels have a
  real part (leading index 0) and an imaginary part (leading index 1).  Only channels 1, 2, 3 matter.  For batch `B`,
  point `n` of `p` and point `m` of `q` the squared distance is

      dist B n m = ∑ k < 3, ( (p[0,B,n,1+k] − q[0,B,m,1+k])² + (p[1,B,n,1+k] − q[1,B,m,1+k])² ),

  and the result is the two-sided nearest-neighbour sum

      total = ∑ B, ∑ j, ( min_m dist B j m  +  min_n dist B n j ),

  each minimum a fold of `min` from +∞.  One program computes `total` in one piece; the other walks the batches in
  eight tiles of sixteen, on channel-major blocks [16, 3, 256], adding for each tile the row minima and the column
  minima separately (`btile`), and accumulates the eight tile sums left to right from zero (`chain`).  Everything is
  over the extended reals, where `+` is commutative and associative, so regrouping the finite sums is all there is to
  prove: `total_eq_sum_tiles` and `chain_seven`.
-/
import Idealize.ShloMosaic.PureOps.Ideal
import Idealize.ShloMosaic.Lib.ValueIdx
import Mathlib.Algebra.BigOperators.Fin
import Mathlib.Algebra.BigOperators.Group.Finset.Basic
import Mathlib.Logic.Equiv.Fin.Basic

noncomputable section

open scoped BigOperators

namespace Cert.Chamfer

open Idealize.ShloMosaic Idealize.ShloMosaic.ValueIdx

/-- A channel-major block: sixteen batches, three channels, 256 points. -/
abbrev SBlk : Shape := ⟨3, ![16, 3, 256]⟩
/-- An argument array: real / imaginary, 128 batches, 256 points, four channels. -/
abbrev SArg : Shape := ⟨4, ![2, 128, 256, 4]⟩

/-- The value every minimum starts from: the f32 pattern of +∞, kept as its pattern. -/
abbrev inf32 : EReal := Ideal.ofBits .f32 0x7F800000#32

/-- The minimum of 256 extended reals, as a fold of `min` from +∞. -/
def minOver (f : Fin 256 → EReal) : EReal := (Finset.univ : Finset (Fin 256)).fold min inf32 f

/-! ## One tile, on blocks -/

/-- The squared distance, inside a tile, of point `n` of the first pair of blocks (real `x0`, imaginary `x1`) to point
    `m` of the second pair (real `x2`, imaginary `x3`), in batch `b` of the tile: the three channels' squares summed. -/
def bdist (x0 x1 x2 x3 : SBlk.Idx → EReal) (b : Fin 16) (n m : Fin 256) : EReal :=
  ∑ k : Fin 3, ((x0 (ix3 b k n) - x2 (ix3 b k m)) * (x0 (ix3 b k n) - x2 (ix3 b k m))
              + (x1 (ix3 b k n) - x3 (ix3 b k m)) * (x1 (ix3 b k n) - x3 (ix3 b k m)))

/-- What a tile contributes: its row minima summed, plus its column minima summed. -/
def btile (x0 x1 x2 x3 : SBlk.Idx → EReal) : EReal :=
  (∑ b : Fin 16, ∑ n : Fin 256, minOver fun m => bdist x0 x1 x2 x3 b n m)
  + (∑ b : Fin 16, ∑ m : Fin 256, minOver fun n => bdist x0 x1 x2 x3 b n m)

/-! ## The whole arrays -/

/-- Channel `k` of a block is channel `1 + k` of an array. -/
def chan (k : Fin 3) : Fin 4 := ⟨1 + k.val, by omega⟩
/-- Batch `b` of tile `t` is batch `16 t + b`. -/
def brow (t : Fin 8) (b : Fin 16) : Fin 128 := ⟨16 * t.val + b.val, by omega⟩

/-- The squared distance of point `n` of `p` to point `m` of `q` in batch `B`. -/
def dist (p q : SArg.Idx → EReal) (B : Fin 128) (n m : Fin 256) : EReal :=
  ∑ k : Fin 3, ((p (ix4 0 B n (chan k)) - q (ix4 0 B m (chan k))) * (p (ix4 0 B n (chan k)) - q (ix4 0 B m (chan k)))
              + (p (ix4 1 B n (chan k)) - q (ix4 1 B m (chan k))) * (p (ix4 1 B n (chan k)) - q (ix4 1 B m (chan k))))

/-- The two-sided nearest-neighbour sum. -/
def total (p q : SArg.Idx → EReal) : EReal :=
  ∑ B : Fin 128, ∑ j : Fin 256, (minOver (fun m => dist p q B j m) + minOver (fun n => dist p q B n j))

/-- Tile `t` of part `r` (0 real, 1 imaginary) of an array, channel-major: entry (b, k, n) is the array's
    (r, 16 t + b, n, 1 + k). -/
def blockOf (a : SArg.Idx → EReal) (r : Fin 2) (t : Fin 8) : SBlk.Idx → EReal :=
  fun i => a (ix4 r (brow t (i 0)) (i 2) (chan (i 1)))

/-- What tile `t` contributes. -/
def tileSum (p q : SArg.Idx → EReal) (t : Fin 8) : EReal :=
  btile (blockOf p 0 t) (blockOf p 1 t) (blockOf q 0 t) (blockOf q 1 t)

/-- Inside a tile the blocks' distance is the arrays' distance at the tile's batch. -/
theorem bdist_blockOf (p q : SArg.Idx → EReal) (t : Fin 8) (b : Fin 16) (n m : Fin 256) :
    bdist (blockOf p 0 t) (blockOf p 1 t) (blockOf q 0 t) (blockOf q 1 t) b n m = dist p q (brow t b) n m := rfl

/-- A sum over the 128 batches is the sum over the eight tiles of the sums over each tile's sixteen batches. -/
theorem sum_batches (g : Fin 128 → EReal) : ∑ B : Fin 128, g B = ∑ t : Fin 8, ∑ b : Fin 16, g (brow t b) := by
  have h1 : ∑ B : Fin 128, g B = ∑ x : Fin 8 × Fin 16, g (finProdFinEquiv x) :=
    (Equiv.sum_comp (finProdFinEquiv : Fin 8 × Fin 16 ≃ Fin (8 * 16)) g).symm
  rw [h1, Fintype.sum_prod_type]
  refine Finset.sum_congr rfl fun t _ => Finset.sum_congr rfl fun b _ => congrArg g (Fin.ext ?_)
  show b.val + 16 * t.val = 16 * t.val + b.val
  omega

/-- The whole sum is the eight tiles' contributions: the batches regrouped in tiles, and inside each tile the row minima
    gathered apart from the column minima. -/
theorem total_eq_sum_tiles (p q : SArg.Idx → EReal) : total p q = ∑ t : Fin 8, tileSum p q t := by
  unfold total
  rw [sum_batches]
  refine Finset.sum_congr rfl fun t _ => ?_
  unfold tileSum btile
  simp only [bdist_blockOf]
  rw [← Finset.sum_add_distrib]
  refine Finset.sum_congr rfl fun b _ => ?_
  rw [← Finset.sum_add_distrib]

/-! ## The tiles accumulated in order -/

/-- Tile number `n`'s contribution (zero past the last tile). -/
def tileAt (p q : SArg.Idx → EReal) (n : ℕ) : EReal := if h : n < 8 then tileSum p q ⟨n, h⟩ else 0

/-- The running sum after tile `n`: zero plus the first tile's contribution, then one more tile each step. -/
def chain (p q : SArg.Idx → EReal) : ℕ → EReal
  | 0 => 0 + tileAt p q 0
  | n + 1 => chain p q n + tileAt p q (n + 1)

/-- After the eighth tile the running sum is the whole sum. -/
theorem chain_seven (p q : SArg.Idx → EReal) : chain p q 7 = total p q := by
  rw [total_eq_sum_tiles, Fin.sum_univ_eight]
  simp only [chain, tileAt, zero_add]
  rfl

end Cert.Chamfer

end
-- ==== Proof.TilePayload.lean ====
/-
  One tile of the kernel, as arithmetic.

  From four channel-major blocks [16, 3, 256] — the real and imaginary parts `x0`, `x1` of one point set and `x2`, `x3` of
  the other — the body builds, channel by channel, the tensor of squared distances on [16, 256, 256]: channel `c` of a
  block is laid along the rows for the first set and along the columns for the second, the two are subtracted and
  squared, and the six squares are added one after another onto zero.  It takes the minimum of that tensor along its last
  axis and along its middle axis, sums each [16, 256] array of minima over all its entries, and adds the two sums to the
  accumulator.  Read at an index, every layout step is an index shuffle, every minimum a fold of `min` from +∞ over the
  256 coordinates of its axis, every total a double sum; the six squares regroup into the sum over the three channels.
-/
import proofs.«171220_j87935160418423_1_alg».proof.Proof.Gen.KernelIdeal.Skeleton
import proofs.«171220_j87935160418423_1_alg».proof.Proof.Spec
import Idealize.ShloMosaic.Lib.ValueIdx
import Idealize.ShloMosaic.Lib.Pipeline.Value
import Idealize.ShloMosaic.PureOps.Ideal.Laws
import Idealize.ShloMosaic.PureOps.Reduce
import Mathlib.Algebra.BigOperators.Fin

noncomputable section

open scoped BigOperators

namespace Cert.KernelIdeal.TileValue

open Idealize.ShloMosaic Idealize.ShloMosaic.ValueIdx Cert.KernelIdeal Cert.KernelIdeal.Gen

/-! ## One channel of a block, laid along the rows or along the columns of a [16, 256, 256] tensor -/

section Layout
variable {α : Type}

/-- Channel `c` of a block with its unit axis dropped: entry (b, n) is the block's (b, c, n). -/
theorem chan_apply (off : Fin 3 → Nat) (hs : S16x3x256.Slices off S16x1x256) (c : Fin 3)
    (h0 : off 0 = 0) (h1 : off 1 = c.val) (h2 : off 2 = 0) (hc1 : S16x1x256.ShapeCasts S16x256)
    (x : S16x3x256.Idx → α) (b : Fin 16) (n : Fin 256) :
    shapeCast S16x256 (extractStridedSlice S16x1x256 off x hs) hc1 (ix2 b n) = x (ix3 b c n) := by
  refine (shapeCast_apply _ hc1 (ix2 b n) (ix3 b (0 : Fin 1) n) ?_).trans ?_
  · rw [Shape.rowMajor_val_two, Shape.rowMajor_val_three]
    show (b.val * 1 + 0) * 256 + n.val = b.val * 256 + n.val
    omega
  refine extractStridedSlice_apply off x hs (ix3 b (0 : Fin 1) n) (ix3 b c n) (fun a => ?_)
  match a with
  | ⟨0, _⟩ => show b.val = off 0 + b.val; omega
  | ⟨1, _⟩ => show c.val = off 1 + 0; omega
  | ⟨2, _⟩ => show n.val = off 2 + n.val; omega

/-- A [16, 256] array given a trailing unit axis and repeated along it: entry (b, n, m) is the array's (b, n). -/
theorem rows_apply (w : S16x256.Idx → α) (hc : S16x256.ShapeCasts S16x256x1) (hb : S16x256x1.Broadcasts S16x256x256)
    (b : Fin 16) (n m : Fin 256) :
    broadcastTo S16x256x256 (shapeCast S16x256x1 w hc) hb (ix3 b n m) = w (ix2 b n) := by
  refine (broadcastTo_apply _ hb (ix3 b n m) (ix3 b n (0 : Fin 1)) (fun a => ?_)).trans ?_
  · match a with
    | ⟨0, _⟩ => rfl
    | ⟨1, _⟩ => rfl
    | ⟨2, _⟩ => rfl
  refine shapeCast_apply w hc (ix3 b n (0 : Fin 1)) (ix2 b n) ?_
  rw [Shape.rowMajor_val_two, Shape.rowMajor_val_three]
  show b.val * 256 + n.val = (b.val * 256 + n.val) * 1 + 0
  omega

/-- A [16, 256] array given a middle unit axis and repeated along it: entry (b, n, m) is the array's (b, m). -/
theorem cols_apply (w : S16x256.Idx → α) (hc : S16x256.ShapeCasts S16x1x256) (hb : S16x1x256.Broadcasts S16x256x256)
    (b : Fin 16) (n m : Fin 256) :
    broadcastTo S16x256x256 (shapeCast S16x1x256 w hc) hb (ix3 b n m) = w (ix2 b m) := by
  refine (broadcastTo_apply _ hb (ix3 b n m) (ix3 b (0 : Fin 1) m) (fun a => ?_)).trans ?_
  · match a with
    | ⟨0, _⟩ => rfl
    | ⟨1, _⟩ => rfl
    | ⟨2, _⟩ => rfl
  refine shapeCast_apply w hc (ix3 b (0 : Fin 1) m) (ix2 b m) ?_
  rw [Shape.rowMajor_val_two, Shape.rowMajor_val_three]
  show b.val * 256 + m.val = (b.val * 1 + 0) * 256 + m.val
  omega

end Layout

/-! ## The loaded blocks and the per-channel differences -/

/-- The first block's identity cast is the block. -/
theorem pay1_eq (x : FVec Ideal S16x3x256 .f32) : k0_pay1 (F := Ideal) x = x :=
  funext fun j => shapeCast_apply x _ j j rfl
/-- The second block's identity cast is the block. -/
theorem pay2_eq (x : FVec Ideal S16x3x256 .f32) : k0_pay2 (F := Ideal) x = x :=
  funext fun j => shapeCast_apply x _ j j rfl
/-- The third block's identity cast is the block. -/
theorem pay3_eq (x : FVec Ideal S16x3x256 .f32) : k0_pay3 (F := Ideal) x = x :=
  funext fun j => shapeCast_apply x _ j j rfl
/-- The fourth block's identity cast is the block. -/
theorem pay4_eq (x : FVec Ideal S16x3x256 .f32) : k0_pay4 (F := Ideal) x = x :=
  funext fun j => shapeCast_apply x _ j j rfl

/-- Channel `c` of `x` along the rows less channel `c` of `y` along the columns: entry (b, n, m) is
    `x[b, c, n] - y[b, c, m]`. -/
theorem chan_diff (off : Fin 3 → Nat) (hs : S16x3x256.Slices off S16x1x256) (c : Fin 3)
    (h0 : off 0 = 0) (h1 : off 1 = c.val) (h2 : off 2 = 0) (hc1 : S16x1x256.ShapeCasts S16x256)
    (hcr : S16x256.ShapeCasts S16x256x1) (hbr : S16x256x1.Broadcasts S16x256x256)
    (hcc : S16x256.ShapeCasts S16x1x256) (hbc : S16x1x256.Broadcasts S16x256x256)
    (x y : FVec Ideal S16x3x256 .f32) (b : Fin 16) (n m : Fin 256) :
    subf (broadcastTo S16x256x256 (shapeCast S16x256x1 (shapeCast S16x256 (extractStridedSlice S16x1x256 off x hs) hc1) hcr) hbr)
        (broadcastTo S16x256x256 (shapeCast S16x1x256 (shapeCast S16x256 (extractStridedSlice S16x1x256 off y hs) hc1) hcc) hbc)
        (ix3 b n m)
      = x (ix3 b c n) - y (ix3 b c m) := by
  refine (subf_apply _ _ _).trans ?_
  rw [rows_apply, cols_apply, chan_apply off hs c h0 h1 h2, chan_apply off hs c h0 h1 h2]

/-- The tensor accumulated over channel 0: at (b, n, m), zero plus the two squared differences of channel 0. -/
theorem pay5_apply (x0 x1 x2 x3 : FVec Ideal S16x3x256 .f32) (b : Fin 16) (n m : Fin 256) :
    k0_pay5 (F := Ideal) x0 x1 x2 x3 (ix3 b n m)
      = (0 + (x0 (ix3 b (0 : Fin 3) n) - x2 (ix3 b (0 : Fin 3) m)) * (x0 (ix3 b (0 : Fin 3) n) - x2 (ix3 b (0 : Fin 3) m)))
        + (x1 (ix3 b (0 : Fin 3) n) - x3 (ix3 b (0 : Fin 3) m)) * (x1 (ix3 b (0 : Fin 3) n) - x3 (ix3 b (0 : Fin 3) m)) := by
  unfold k0_pay5
  rw [pay1_eq, pay2_eq, pay3_eq, pay4_eq]
  simp only [addf_apply, mulf_apply, broadcast_apply]
  rw [chan_diff ![0, 0, 0] _ 0 rfl rfl rfl _ _ _ _ _ x0 x2 b n m, chan_diff ![0, 0, 0] _ 0 rfl rfl rfl _ _ _ _ _ x1 x3 b n m]
  rw [show (Scalar.ofBits .f32 0x00000000#32 : Ideal .f32) = 0 from Ideal.ofBits_zero_f32]

/-- The real parts' difference on channel 1. -/
theorem pay6_apply (x0 x2 : FVec Ideal S16x3x256 .f32) (b : Fin 16) (n m : Fin 256) :
    k0_pay6 (F := Ideal) x0 x2 (ix3 b n m) = x0 (ix3 b (1 : Fin 3) n) - x2 (ix3 b (1 : Fin 3) m) := by
  unfold k0_pay6
  rw [pay1_eq, pay3_eq]
  exact chan_diff ![0, 1, 0] _ 1 rfl rfl rfl _ _ _ _ _ x0 x2 b n m

/-- The imaginary parts' difference on channel 1, from its two halves. -/
theorem pay78_apply (x1 x3 : FVec Ideal S16x3x256 .f32) (hbr : S16x256x1.Broadcasts S16x256x256)
    (hbc : S16x1x256.Broadcasts S16x256x256) (b : Fin 16) (n m : Fin 256) :
    subf (broadcastTo S16x256x256 (k0_pay7 (F := Ideal) x1) hbr) (broadcastTo S16x256x256 (k0_pay8 (F := Ideal) x3) hbc) (ix3 b n m)
      = x1 (ix3 b (1 : Fin 3) n) - x3 (ix3 b (1 : Fin 3) m) := by
  unfold k0_pay7 k0_pay8
  rw [pay2_eq, pay4_eq]
  exact chan_diff ![0, 1, 0] _ 1 rfl rfl rfl _ _ _ _ _ x1 x3 b n m

/-! ## The two minima -/

/-- A minimum taken along one axis is the fold of `min`, from the starting value, over that axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum along the last axis: at (b, n), the minimum over `m` of the entries (b, n, m). -/
theorem minLast_apply (V : FVec Ideal S16x256x256 .f32) (h : S16x256x256.Reduces [2] S16x256) (hφ : FKind.Formats .f32)
    (hacc : (0x7F800000#32 : BitVec 32) = FKind.minimumf.neutral .f32 hφ) (b : Fin 16) (n : Fin 256) :
    multiReduction .minimumf [2] S16x256 V 0x7F800000#32 h hφ hacc (ix2 b n) = Chamfer.minOver fun m => V (ix3 b n m) := by
  refine (multiReduction_minimumf_single V _ h hφ hacc (ix2 b n)).trans ?_
  have hl : ∀ k : Fin 256, h.lift (ix2 b n) k = ix3 b n k := fun k => funext fun c => Fin.ext (by
    match c with
    | ⟨0, _⟩ => rfl
    | ⟨1, _⟩ => rfl
    | ⟨2, _⟩ => rfl)
  show (Finset.univ : Finset (Fin 256)).fold min Chamfer.inf32 (fun k => V (h.lift (ix2 b n) k)) = _
  unfold Chamfer.minOver
  exact congrArg (Finset.fold min Chamfer.inf32 · Finset.univ) (funext fun k => congrArg V (hl k))

/-- The minimum along the middle axis: at (b, m), the minimum over `n` of the entries (b, n, m). -/
theorem minMid_apply (V : FVec Ideal S16x256x256 .f32) (h : S16x256x256.Reduces [1] S16x256) (hφ : FKind.Formats .f32)
    (hacc : (0x7F800000#32 : BitVec 32) = FKind.minimumf.neutral .f32 hφ) (b : Fin 16) (m : Fin 256) :
    multiReduction .minimumf [1] S16x256 V 0x7F800000#32 h hφ hacc (ix2 b m) = Chamfer.minOver fun n => V (ix3 b n m) := by
  refine (multiReduction_minimumf_single V _ h hφ hacc (ix2 b m)).trans ?_
  have hl : ∀ k : Fin 256, h.lift (ix2 b m) k = ix3 b k m := fun k => funext fun c => Fin.ext (by
    match c with
    | ⟨0, _⟩ => rfl
    | ⟨1, _⟩ => rfl
    | ⟨2, _⟩ => rfl)
  show (Finset.univ : Finset (Fin 256)).fold min Chamfer.inf32 (fun k => V (h.lift (ix2 b m) k)) = _
  unfold Chamfer.minOver
  exact congrArg (Finset.fold min Chamfer.inf32 · Finset.univ) (funext fun k => congrArg V (hl k))

/-! ## The total of a [16, 256] array read as [1, 16, 256] -/

/-- An index of a [1, 16, 256] array is a pair of a batch and a point. -/
def idxEquiv116 : S1x16x256.Idx ≃ Fin 16 × Fin 256 where
  toFun i := (i 1, i 2)
  invFun p := ix3 (0 : Fin 1) p.1 p.2
  left_inv i := (congrArg (fun z => ix3 z (i 1) (i 2)) (Subsingleton.elim (0 : Fin 1) (i 0))).trans (eq_ix3 i).symm
  right_inv _ := rfl

/-- So a sum over such indices is the double sum over batches and points. -/
theorem sum_idx116 {M : Type*} [AddCommMonoid M] (f : S1x16x256.Idx → M) :
    ∑ i, f i = ∑ b : Fin 16, ∑ n : Fin 256, f (ix3 (0 : Fin 1) b n) := by
  rw [← Equiv.sum_comp idxEquiv116.symm f, Fintype.sum_prod_type]
  rfl

/-- The sum of every entry of a [16, 256] array, as the kernel takes it: reshaped to [1, 16, 256], summed over its two
    long axes into one entry, that entry read. -/
theorem total_apply (w : FVec Ideal S16x256 .f32) (hc : S16x256.ShapeCasts S1x16x256) (hr : S1x16x256.Reduces [1, 2] S1)
    (hφ : FKind.Formats .f32) (hadd : (0x00000000#32 : BitVec 32) = FKind.add.neutral .f32 hφ)
    (hc' : S1.ShapeCasts S1x1x1) (hp : ∀ a, (![0, 0, 0] : Fin 3 → Nat) a < S1x1x1.size a) :
    extractAt ![0, 0, 0] (shapeCast S1x1x1 (multiReduction .add [1, 2] S1 (shapeCast S1x16x256 w hc) 0x00000000#32 hr hφ hadd) hc') hp
      = ∑ b : Fin 16, ∑ n : Fin 256, w (ix2 b n) := by
  unfold extractAt
  refine (shapeCast_apply _ hc' _ (ix1 (0 : Fin 1)) ?_).trans ?_
  · rw [Shape.rowMajor_val_one, Shape.rowMajor_val_three]
    rfl
  refine (Ideal.multiReduction_add_total _ _ hr (fun b => ?_) hφ hadd _).trans ?_
  · match b with
    | ⟨0, _⟩ => rfl
  rw [sum_idx116]
  refine Finset.sum_congr rfl fun b _ => Finset.sum_congr rfl fun n _ => ?_
  refine shapeCast_apply w hc (ix3 (0 : Fin 1) b n) (ix2 b n) ?_
  rw [Shape.rowMajor_val_two, Shape.rowMajor_val_three]
  show b.val * 256 + n.val = (0 * 16 + b.val) * 256 + n.val
  omega

/-! ## From the accumulated tensor to the stored value -/

/-- Whatever the accumulated tensor `V` is at each (b, n, m), the stored value is the previous one plus the sum over
    (b, n) of the minima over `m`, plus the sum over (b, m) of the minima over `n`. -/
theorem tail_eq (V : FVec Ideal S16x256x256 .f32) (d : Fin 16 → Fin 256 → Fin 256 → EReal)
    (hV : ∀ b n m, V (ix3 b n m) = d b n m) (v90 : FVec Ideal S1x1 .f32) (i : S1x1.Idx)
    (h1 : S1x1.ShapeCasts S1x1) (hr2 : S16x256x256.Reduces [2] S16x256) (hr1 : S16x256x256.Reduces [1] S16x256)
    (hφ : FKind.Formats .f32) (hmin : (0x7F800000#32 : BitVec 32) = FKind.minimumf.neutral .f32 hφ)
    (hc : S16x256.ShapeCasts S1x16x256) (hr : S1x16x256.Reduces [1, 2] S1)
    (hadd : (0x00000000#32 : BitVec 32) = FKind.add.neutral .f32 hφ)
    (hc' : S1.ShapeCasts S1x1x1) (hp : ∀ a, (![0, 0, 0] : Fin 3 → Nat) a < S1x1x1.size a) :
    addf (F := Ideal) (φ := .f32) (shapeCast S1x1 v90 h1) (broadcast S1x1 (Scalar.addf
        (extractAt ![0, 0, 0] (shapeCast S1x1x1 (multiReduction .add [1, 2] S1 (shapeCast S1x16x256
          (multiReduction .minimumf [2] S16x256 V 0x7F800000#32 hr2 hφ hmin) hc) 0x00000000#32 hr hφ hadd) hc') hp)
        (extractAt ![0, 0, 0] (shapeCast S1x1x1 (multiReduction .add [1, 2] S1 (shapeCast S1x16x256
          (multiReduction .minimumf [1] S16x256 V 0x7F800000#32 hr1 hφ hmin) hc) 0x00000000#32 hr hφ hadd) hc') hp))) i
      = v90 i + ((∑ b : Fin 16, ∑ n : Fin 256, Chamfer.minOver fun m => d b n m)
          + (∑ b : Fin 16, ∑ m : Fin 256, Chamfer.minOver fun n => d b n m)) := by
  refine (addf_apply _ _ i).trans ?_
  refine congrArg₂ (· + ·) (shapeCast_apply v90 h1 i i rfl) ?_
  refine (broadcast_apply _ i).trans ?_
  refine (Ideal.scalar_addf_def _ _).trans ?_
  refine congrArg₂ (· + ·) ?_ ?_
  · refine (total_apply _ hc hr hφ hadd hc' hp).trans ?_
    refine Finset.sum_congr rfl fun b _ => Finset.sum_congr rfl fun n _ => ?_
    refine (minLast_apply V hr2 hφ hmin b n).trans ?_
    exact congrArg Chamfer.minOver (funext fun m => hV b n m)
  · refine (total_apply _ hc hr hφ hadd hc' hp).trans ?_
    refine Finset.sum_congr rfl fun b _ => Finset.sum_congr rfl fun m _ => ?_
    refine (minMid_apply V hr1 hφ hmin b m).trans ?_
    exact congrArg Chamfer.minOver (funext fun n => hV b n m)

/-- The stored value of one tile: the previous accumulator plus the tile's two-sided sum of nearest squared distances. -/
theorem pay10_eq (x0 x1 x2 x3 : Vec Ideal Cert.KernelIdeal.S16x3x256 .f32) (v90 : Vec Ideal Cert.KernelIdeal.S1x1 .f32) :
    Cert.KernelIdeal.Gen.k0_pay10 (F := Ideal) (Cert.KernelIdeal.Gen.k0_pay1 x0) (Cert.KernelIdeal.Gen.k0_pay2 x1) (Cert.KernelIdeal.Gen.k0_pay3 x2) (Cert.KernelIdeal.Gen.k0_pay4 x3)
        (Cert.KernelIdeal.Gen.k0_pay5 x0 x1 x2 x3) (Cert.KernelIdeal.Gen.k0_pay6 x0 x2) (Cert.KernelIdeal.Gen.k0_pay7 x1) (Cert.KernelIdeal.Gen.k0_pay8 x3) v90
      = fun i => v90 i + Cert.Chamfer.btile x0 x1 x2 x3 := by
  funext i
  unfold k0_pay10 Chamfer.btile
  dsimp only
  refine tail_eq _ (Chamfer.bdist x0 x1 x2 x3) (fun b n m => ?_) v90 i _ _ _ _ _ _ _ _ _ _
  have e5 := pay5_apply x0 x1 x2 x3 b n m
  have e6 := pay6_apply x0 x2 b n m
  have e78 := pay78_apply x1 x3 broadcasts_S16x256x1_S16x256x256 broadcasts_S16x1x256_S16x256x256 b n m
  have eD := chan_diff ![0, 2, 0] slices_S16x3x256_o0_2_0_S16x1x256 2 rfl rfl rfl shapeCasts_S16x1x256_S16x256
    shapeCasts_S16x256_S16x256x1 broadcasts_S16x256x1_S16x256x256 shapeCasts_S16x256_S16x1x256
    broadcasts_S16x1x256_S16x256x256 x0 x2 b n m
  have eE := chan_diff ![0, 2, 0] slices_S16x3x256_o0_2_0_S16x1x256 2 rfl rfl rfl shapeCasts_S16x1x256_S16x256
    shapeCasts_S16x256_S16x256x1 broadcasts_S16x256x1_S16x256x256 shapeCasts_S16x256_S16x1x256
    broadcasts_S16x1x256_S16x256x256 x1 x3 b n m
  rw [pay1_eq, pay2_eq, pay3_eq, pay4_eq]
  simp only [addf_apply, mulf_apply]
  rw [e5, e6, e78, eD, eE]
  unfold Chamfer.bdist
  rw [Fin.sum_univ_three, zero_add]
  simp only [add_assoc]

end Cert.KernelIdeal.TileValue

end
-- ==== Proof.KernelValue.lean ====
/-
  The idealized kernel's run, read as a value.

  The launch walks the 128 batches in eight tiles of sixteen.  At each tile the body loads four channel-major blocks
  (the real and the imaginary part of each argument, channels 1, 2, 3), forms the tile's contribution — its row minima
  and its column minima of the squared-distance tensor, each summed — and adds it to a one-entry accumulator that the
  first tile resets to zero and that is written back once, after the last tile.  So the accumulator after tile `n` is the
  running sum `((0 + s₀) + s₁) + … + sₙ` of the tiles' contributions, by induction on the tile; after the eighth tile it
  is the whole two-sided nearest-neighbour sum, which the line after the launch reshapes to the scalar result.

  The blocks are pieces of the argument arrays: the host lines before the launch slice an argument's real or imaginary
  part and channels 1, 2, 3, drop the unit axis and swap the last two axes, and a window's block at tile `t` is batches
  `16 t … 16 t + 15` of that.
-/
import proofs.«171220_j87935160418423_1_alg».proof.Proof.Gen.KernelIdeal.Frame
import proofs.«171220_j87935160418423_1_alg».proof.Proof.Spec
import proofs.«171220_j87935160418423_1_alg».proof.Proof.TilePayload
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.RunValue

open Cert.KernelIdeal Cert.KernelIdeal.Gen
open Idealize.ShloMosaic.ValueIdx

section AnyInstance

variable {F : FTy → Type} [FloatOps F]
variable (m : (ℓ : Loc nD τ sig) → Buf (Elt F) ℓ) (ρ : Dev nD → PrngReg)

/-- The zero offsets of a rank-2 and of a rank-3 access, as constant functions. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## What the body's stores leave in the accumulator -/

/-- Away from the first tile the body leaves, in the accumulator's buffer holding `xo`, its one store's value: the
    tile's contribution added to `xo`, as a function of the four input blocks. -/
theorem out_B (c : Dev nD) (i : grid0.Coords) (a1 : Memref sig .tc .vmem S16x3x256 .f32) (h1 : a1.IsWhole)
    (a2 : Memref sig .tc .vmem S16x3x256 .f32) (h2 : a2.IsWhole) (a3 : Memref sig .tc .vmem S16x3x256 .f32) (h3 : a3.IsWhole)
    (a4 : Memref sig .tc .vmem S16x3x256 .f32) (h4 : a4.IsWhole) (a5 : Memref sig .tc .vmem S1x1 .f32) (h5 : a5.IsWhole)
    (hc : ¬cond0_0 i) (x0 x1 x2 x3 : Vec F S16x3x256 .f32) (xo : Vec F S1x1 .f32) :
    out0_B_4 c i a1 h1 a2 h2 a3 h3 a4 h4 a5 h5 hc x0 x1 x2 x3 xo
      = k0_pay10 (k0_pay1 x0) (k0_pay2 x1) (k0_pay3 x2) (k0_pay4 x3) (k0_pay5 x0 x1 x2 x3) (k0_pay6 x0 x2) (k0_pay7 x1) (k0_pay8 x3) xo := by
  unfold out0_B_4
  rw [View.read_writes_eq_canon _ _ _ (cover0_B_4 c i a1 h1 a2 h2 a3 h3 a4 h4 a5 h5 hc x0 x1 x2 x3 xo)]
  unfold kernelRun0_B
  dsimp only
  sl_unfold_words
  rw [View.canon_unit_zero hz2]
  simp only [View.readAt_eq_ld, h1.read_unread, h2.read_unread, h3.read_unread, h4.read_unread, h5.read_unread,
    View.ld_unit_zero (S := S16x3x256) hz3, View.ld_unit_zero (S := S1x1) hz2]

/-- At the first tile the body first stores the zero, reads it back, and leaves the tile's contribution added to it. -/
theorem out_A (c : Dev nD) (i : grid0.Coords) (a1 : Memref sig .tc .vmem S16x3x256 .f32) (h1 : a1.IsWhole)
    (a2 : Memref sig .tc .vmem S16x3x256 .f32) (h2 : a2.IsWhole) (a3 : Memref sig .tc .vmem S16x3x256 .f32) (h3 : a3.IsWhole)
    (a4 : Memref sig .tc .vmem S16x3x256 .f32) (h4 : a4.IsWhole) (a5 : Memref sig .tc .vmem S1x1 .f32) (h5 : a5.IsWhole)
    (hc : cond0_0 i) (x0 x1 x2 x3 : Vec F S16x3x256 .f32) :
    out0_A_4 c i a1 h1 a2 h2 a3 h3 a4 h4 a5 h5 hc x0 x1 x2 x3
      = k0_pay10 (k0_pay1 x0) (k0_pay2 x1) (k0_pay3 x2) (k0_pay4 x3) (k0_pay5 x0 x1 x2 x3) (k0_pay6 x0 x2) (k0_pay7 x1) (k0_pay8 x3) (k0_pay9 (F := F)) := by
  unfold out0_A_4
  rw [View.read_writes_eq_canon _ _ _ (cover0_A_4 c i a1 h1 a2 h2 a3 h3 a4 h4 a5 h5 hc x0 x1 x2 x3)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread,
    View.ld_unit_zero (S := S16x3x256) hz3]

/-! ## The four staged arrays and their blocks -/

/-- What the host lines before the launch do to an argument array: keep part `r` and channels 1, 2, 3, drop the unit axis,
    swap the last two axes.  Entry (B, k, n) of the result is entry (r, B, n, 1 + k) of the array. -/
theorem prep_apply {α : Type} (x : S2x128x256x4.Idx → α) (r : Fin 2) (off : Fin 4 → Nat) (hoff : off = ![r.val, 0, 0, 1])
    (hs : S2x128x256x4.Slices off S1x128x256x3) (B : Fin 128) (k : Fin 3) (n : Fin 256) :
    transpose S128x3x256 [0, 2, 1] (shapeCast S128x256x3 (extractStridedSlice S1x128x256x3 off x hs) shapeCasts_S1x128x256x3_S128x256x3)
        transposes_S128x256x3_S128x3x256_0_2_1 (ix3 B k n)
      = x (ix4 r B n (Cert.Chamfer.chan k)) := by
  subst hoff
  rw [transpose_apply _ _ _ (ix3 B k n) (ix3 B n k) (fun b => by match b with | ⟨0, _⟩ => rfl | ⟨1, _⟩ => rfl | ⟨2, _⟩ => rfl)]
  rw [shapeCast_apply _ _ (ix3 B n k) (ix4 (0 : Fin 1) B n k) (by rw [Shape.rowMajor_val_four, Shape.rowMajor_val_three]; show ((0 * 128 + B.val) * 256 + n.val) * 3 + k.val = (B.val * 256 + n.val) * 3 + k.val; omega)]
  exact extractStridedSlice_apply _ x hs (ix4 (0 : Fin 1) B n k) (ix4 r B n (Cert.Chamfer.chan k))
    (fun a => by match a with
      | ⟨0, _⟩ => show r.val = r.val + 0; omega
      | ⟨1, _⟩ => show B.val = 0 + B.val; omega
      | ⟨2, _⟩ => show n.val = 0 + n.val; omega
      | ⟨3, _⟩ => show 1 + k.val = 1 + k.val; rfl)

/-- The array the first window stages, as the launch finds it: the real part of the first argument, prepared. -/
theorem V_pr (c : Dev nD) : (V m c main_v2 : Vec F S128x3x256 .f32)
    = transpose S128x3x256 [0, 2, 1] (shapeCast S128x256x3 (extractStridedSlice S1x128x256x3 ![0, 0, 0, 1] (m ((c : Thread nD τ).loc main_arg0)) slices_S2x128x256x4_S1x128x256x3_0_0_0_1) shapeCasts_S1x128x256x3_S128x256x3)
        transposes_S128x256x3_S128x3x256_0_2_1 := by
  show StableHlo.after hostOps0 (fun b => m (c, b)) (Proc.devRef .tc main_v2) = _
  after_results
  rfl

/-- The second window's: the imaginary part of the first argument. -/
theorem V_pi (c : Dev nD) : (V m c main_v5 : Vec F S128x3x256 .f32)
    = transpose S128x3x256 [0, 2, 1] (shapeCast S128x256x3 (extractStridedSlice S1x128x256x3 ![1, 0, 0, 1] (m ((c : Thread nD τ).loc main_arg0)) slices_S2x128x256x4_S1x128x256x3_1_0_0_1) shapeCasts_S1x128x256x3_S128x256x3)
        transposes_S128x256x3_S128x3x256_0_2_1 := by
  show StableHlo.after hostOps0 (fun b => m (c, b)) (Proc.devRef .tc main_v5) = _
  after_results
  rfl

/-- The third window's: the real part of the second argument. -/
theorem V_qr (c : Dev nD) : (V m c main_v8 : Vec F S128x3x256 .f32)
    = transpose S128x3x256 [0, 2, 1] (shapeCast S128x256x3 (extractStridedSlice S1x128x256x3 ![0, 0, 0, 1] (m ((c : Thread nD τ).loc main_arg1)) slices_S2x128x256x4_S1x128x256x3_0_0_0_1) shapeCasts_S1x128x256x3_S128x256x3)
        transposes_S128x256x3_S128x3x256_0_2_1 := by
  show StableHlo.after hostOps0 (fun b => m (c, b)) (Proc.devRef .tc main_v8) = _
  after_results
  rfl

/-- The fourth window's: the imaginary part of the second argument. -/
theorem V_qi (c : Dev nD) : (V m c main_v11 : Vec F S128x3x256 .f32)
    = transpose S128x3x256 [0, 2, 1] (shapeCast S128x256x3 (extractStridedSlice S1x128x256x3 ![1, 0, 0, 1] (m ((c : Thread nD τ).loc main_arg1)) slices_S2x128x256x4_S1x128x256x3_1_0_0_1) shapeCasts_S1x128x256x3_S128x256x3)
        transposes_S128x256x3_S128x3x256_0_2_1 := by
  show StableHlo.after hostOps0 (fun b => m (c, b)) (Proc.devRef .tc main_v11) = _
  after_results
  rfl

/-- Each input window's block at tile `t` starts at batch `16 t` and is whole in the other two axes. -/
theorem idx_facts : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0) :=
  (by decide +kernel : ∀ t : Fin grid0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0))

/-- So entry (b, k, n) of the first window's block at tile `t` is the staged array's entry (16 t + b, k, n); -/
theorem blk_pr_apply (c : Dev nD) (t : Fin cfg0.N) (ht : t.val < 8) (b : Fin 16) (k : Fin 3) (n : Fin 256) :
    (iblk m c 0 t : Vec F S16x3x256 .f32) (ix3 b k n) = (V m c main_v2 : Vec F S128x3x256 .f32) (ix3 (Cert.Chamfer.brow ⟨t.val, ht⟩ b) k n) := by
  unfold iblk
  rw [View.read_apply]
  show V m c main_v2 _ = V m c main_v2 _
  congr 1
  funext a
  apply Fin.ext
  obtain ⟨i0, i1, i2⟩ := (idx_facts t).1
  match a with
  | ⟨0, _⟩ => show win0_0.index t 0 * 16 + 1 * b.val = 16 * t.val + b.val; rw [i0]; omega
  | ⟨1, _⟩ => show win0_0.index t 1 * 3 + 1 * k.val = k.val; rw [i1]; omega
  | ⟨2, _⟩ => show win0_0.index t 2 * 256 + 1 * n.val = n.val; rw [i2]; omega

/-- the same for the second window, -/
theorem blk_pi_apply (c : Dev nD) (t : Fin cfg0.N) (ht : t.val < 8) (b : Fin 16) (k : Fin 3) (n : Fin 256) :
    (iblk m c 1 t : Vec F S16x3x256 .f32) (ix3 b k n) = (V m c main_v5 : Vec F S128x3x256 .f32) (ix3 (Cert.Chamfer.brow ⟨t.val, ht⟩ b) k n) := by
  unfold iblk
  rw [View.read_apply]
  show V m c main_v5 _ = V m c main_v5 _
  congr 1
  funext a
  apply Fin.ext
  obtain ⟨i0, i1, i2⟩ := (idx_facts t).2.1
  match a with
  | ⟨0, _⟩ => show win0_1.index t 0 * 16 + 1 * b.val = 16 * t.val + b.val; rw [i0]; omega
  | ⟨1, _⟩ => show win0_1.index t 1 * 3 + 1 * k.val = k.val; rw [i1]; omega
  | ⟨2, _⟩ => show win0_1.index t 2 * 256 + 1 * n.val = n.val; rw [i2]; omega

/-- the third, -/
theorem blk_qr_apply (c : Dev nD) (t : Fin cfg0.N) (ht : t.val < 8) (b : Fin 16) (k : Fin 3) (n : Fin 256) :
    (iblk m c 2 t : Vec F S16x3x256 .f32) (ix3 b k n) = (V m c main_v8 : Vec F S128x3x256 .f32) (ix3 (Cert.Chamfer.brow ⟨t.val, ht⟩ b) k n) := by
  unfold iblk
  rw [View.read_apply]
  show V m c main_v8 _ = V m c main_v8 _
  congr 1
  funext a
  apply Fin.ext
  obtain ⟨i0, i1, i2⟩ := (idx_facts t).2.2.1
  match a with
  | ⟨0, _⟩ => show win0_2.index t 0 * 16 + 1 * b.val = 16 * t.val + b.val; rw [i0]; omega
  | ⟨1, _⟩ => show win0_2.index t 1 * 3 + 1 * k.val = k.val; rw [i1]; omega
  | ⟨2, _⟩ => show win0_2.index t 2 * 256 + 1 * n.val = n.val; rw [i2]; omega

/-- and the fourth. -/
theorem blk_qi_apply (c : Dev nD) (t : Fin cfg0.N) (ht : t.val < 8) (b : Fin 16) (k : Fin 3) (n : Fin 256) :
    (iblk m c 3 t : Vec F S16x3x256 .f32) (ix3 b k n) = (V m c main_v11 : Vec F S128x3x256 .f32) (ix3 (Cert.Chamfer.brow ⟨t.val, ht⟩ b) k n) := by
  unfold iblk
  rw [View.read_apply]
  show V m c main_v11 _ = V m c main_v11 _
  congr 1
  funext a
  apply Fin.ext
  obtain ⟨i0, i1, i2⟩ := (idx_facts t).2.2.2
  match a with
  | ⟨0, _⟩ => show win0_3.index t 0 * 16 + 1 * b.val = 16 * t.val + b.val; rw [i0]; omega
  | ⟨1, _⟩ => show win0_3.index t 1 * 3 + 1 * k.val = k.val; rw [i1]; omega
  | ⟨2, _⟩ => show win0_3.index t 2 * 256 + 1 * n.val = n.val; rw [i2]; omega

end AnyInstance

/-! ## At the ideal instance: the tiles accumulate to the whole sum -/

section AtIdeal

variable (m : (ℓ : Loc nD τ sig) → Buf (Elt Ideal) ℓ) (ρ : Dev nD → PrngReg)

/-- The two argument arrays on core `c`, as the launch finds them. -/
abbrev argP (c : Dev nD) : Cert.Chamfer.SArg.Idx → EReal := m ((c : Thread nD τ).loc main_arg0)
abbrev argQ (c : Dev nD) : Cert.Chamfer.SArg.Idx → EReal := m ((c : Thread nD τ).loc main_arg1)

/-- The four blocks at tile `t` are tile `t` of the real and imaginary parts of the two arguments, channel-major. -/
theorem blk_pr_eq (c : Dev nD) (t : Fin cfg0.N) (ht : t.val < 8) :
    (iblk m c 0 t : Vec Ideal S16x3x256 .f32) = Cert.Chamfer.blockOf (argP m c) 0 ⟨t.val, ht⟩ := by
  refine funext fun (i : S16x3x256.Idx) => ?_
  obtain ⟨b, k, n, rfl⟩ : ∃ (b : Fin 16) (k : Fin 3) (n : Fin 256), i = ix3 b k n := ⟨i 0, i 1, i 2, eq_ix3 i⟩
  rw [blk_pr_apply m c t ht, V_pr]
  exact prep_apply _ 0 _ rfl _ _ _ _
theorem blk_pi_eq (c : Dev nD) (t : Fin cfg0.N) (ht : t.val < 8) :
    (iblk m c 1 t : Vec Ideal S16x3x256 .f32) = Cert.Chamfer.blockOf (argP m c) 1 ⟨t.val, ht⟩ := by
  refine funext fun (i : S16x3x256.Idx) => ?_
  obtain ⟨b, k, n, rfl⟩ : ∃ (b : Fin 16) (k : Fin 3) (n : Fin 256), i = ix3 b k n := ⟨i 0, i 1, i 2, eq_ix3 i⟩
  rw [blk_pi_apply m c t ht, V_pi]
  exact prep_apply _ 1 _ rfl _ _ _ _
theorem blk_qr_eq (c : Dev nD) (t : Fin cfg0.N) (ht : t.val < 8) :
    (iblk m c 2 t : Vec Ideal S16x3x256 .f32) = Cert.Chamfer.blockOf (argQ m c) 0 ⟨t.val, ht⟩ := by
  refine funext fun (i : S16x3x256.Idx) => ?_
  obtain ⟨b, k, n, rfl⟩ : ∃ (b : Fin 16) (k : Fin 3) (n : Fin 256), i = ix3 b k n := ⟨i 0, i 1, i 2, eq_ix3 i⟩
  rw [blk_qr_apply m c t ht, V_qr]
  exact prep_apply _ 0 _ rfl _ _ _ _
theorem blk_qi_eq (c : Dev nD) (t : Fin cfg0.N) (ht : t.val < 8) :
    (iblk m c 3 t : Vec Ideal S16x3x256 .f32) = Cert.Chamfer.blockOf (argQ m c) 1 ⟨t.val, ht⟩ := by
  refine funext fun (i : S16x3x256.Idx) => ?_
  obtain ⟨b, k, n, rfl⟩ : ∃ (b : Fin 16) (k : Fin 3) (n : Fin 256), i = ix3 b k n := ⟨i 0, i 1, i 2, eq_ix3 i⟩
  rw [blk_qi_apply m c t ht, V_qi]
  exact prep_apply _ 1 _ rfl _ _ _ _

/-- The value the first tile's reset stores is zero. -/
theorem pay9_zero : (k0_pay9 (F := Ideal)) = fun _ => (0 : EReal) := by
  funext i
  show Ideal.ofBits .f32 0x00000000#32 = 0
  exact Ideal.ofBits_zero_f32

/-- What a tile's body leaves on top of an accumulator `xo`: `xo` plus the tile's contribution. -/
theorem body_value (c : Dev nD) (t : Fin cfg0.N) (ht : t.val < 8) (xo : Vec Ideal S1x1 .f32) :
    k0_pay10 (F := Ideal) (k0_pay1 (iblk m c 0 t)) (k0_pay2 (iblk m c 1 t)) (k0_pay3 (iblk m c 2 t)) (k0_pay4 (iblk m c 3 t))
        (k0_pay5 (iblk m c 0 t) (iblk m c 1 t) (iblk m c 2 t) (iblk m c 3 t)) (k0_pay6 (iblk m c 0 t) (iblk m c 2 t))
        (k0_pay7 (iblk m c 1 t)) (k0_pay8 (iblk m c 3 t)) xo
      = fun i => xo i + Cert.Chamfer.tileSum (argP m c) (argQ m c) ⟨t.val, ht⟩ := by
  rw [Cert.KernelIdeal.TileValue.pay10_eq]
  funext i
  unfold Cert.Chamfer.tileSum
  rw [blk_pr_eq m c t ht, blk_pi_eq m c t ht, blk_qr_eq m c t ht, blk_qi_eq m c t ht]

/-- THE ACCUMULATION.  After tile `n` the accumulator holds the running sum of the first `n + 1` tiles' contributions:
    the first tile resets it to zero and adds its own, every later tile adds its own to what the tile before left. -/
theorem outsAt_eq (c : Dev nD) : ∀ (n : ℕ) (h : n < cfg0.N),
    outsAt0 m c n h = fun _ => Cert.Chamfer.chain (argP m c) (argQ m c) n
  | 0, h => by
    rw [outsAt0_A m c ⟨0, h⟩ rfl, out_A, body_value m c ⟨0, h⟩ (by show (0 : ℕ) < 8; omega), pay9_zero]
    rfl
  | n + 1, h => by
    have hN : cfg0.N = 8 := N_0
    have hn : n + 1 < 8 := hN ▸ h
    have hB : ¬(⟨n + 1, h⟩ : Fin cfg0.N).val % 8 = 0 := by dsimp only; omega
    rw [outsAt0_B m c ⟨n + 1, h⟩ hB, out_B, body_value m c ⟨n + 1, h⟩ hn]
    funext i
    show outsAt0 m c n _ i + _ = Cert.Chamfer.chain _ _ n + Cert.Chamfer.tileAt _ _ (n + 1)
    rw [outsAt_eq c n, Cert.Chamfer.tileAt, dif_pos hn]

/-- The result array of the launch: its one entry is the whole sum. -/
abbrev result (c : Dev nD) : Buf (Elt Ideal) ((c : Thread nD τ).loc main_v12) :=
  fun _ => Cert.Chamfer.total (argP m c) (argQ m c)

/-- The one write-back, after the last tile, writes it: the accumulator then holds the running sum of all eight tiles. -/
theorem flushed_eq (c : Dev nD) (t : Fin cfg0.N) (hf : (cfg0.win 4).flush t = true) :
    (dats m 0 c).flushed 4 t = ((cfg0.win 4).blk t).view.read (Elt Ideal) (result m c) := by
  have hN : cfg0.N = 8 := N_0
  have h7 : t.val = 7 := by have := (flush0_4 t).mp hf; have := t.isLt; omega
  obtain rfl : t = t0_7 := Fin.ext h7
  show (cfg0.win 4).cut (grid0.coords t0_7) ((dats m 0 c).after 4 t0_7) = _
  rw [after0_4, outsAt_eq]
  show _ = ((cfg0.win 4).blk t0_7).view.read (Elt Ideal) (fun _ => Cert.Chamfer.total (argP m c) (argQ m c))
  rw [← Cert.Chamfer.chain_seven]
  rfl

/-- So the result array ends holding the whole sum: its one block is the whole array. -/
theorem final_o (c : Dev nD) : (dats m 0 c).arrAt 4 cfg0.N = result m c :=
  (dats m 0 c).arrAt_eq_of_cover 4 (result m c) (flushed_eq m c) fun i =>
    ⟨t0_7, (flush0_4 t0_7).mpr rfl, by
      show i ∈ ((View.whole main_v12).slice (win0_4.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_4.index t0_7 0 * win0_4.size 0 ≤ (i 0 : Nat) ∧ (i 0 : Nat) < win0_4.index t0_7 0 * win0_4.size 0 + win0_4.xsize (grid0.coords t0_7) 0
                  rw [show win0_4.index t0_7 0 * win0_4.size 0 = 0 from by decide +kernel, show win0_4.xsize (grid0.coords t0_7) 0 = 1 from by decide +kernel]; omega
      | ⟨1, _⟩ => show win0_4.index t0_7 1 * win0_4.size 1 ≤ (i 1 : Nat) ∧ (i 1 : Nat) < win0_4.index t0_7 1 * win0_4.size 1 + win0_4.xsize (grid0.coords t0_7) 1
                  rw [show win0_4.index t0_7 1 * win0_4.size 1 = 0 from by decide +kernel, show win0_4.xsize (grid0.coords t0_7) 1 = 1 from by decide +kernel]; omega⟩

/-- The line after the launch reshapes the one-entry array to a scalar: the whole sum. -/
theorem tail_value (c : Dev nD) :
    Pipeline.afterTail₀ cfgs (dats m) 0 (V0 m) [hostOps1] c main_v13 = fun _ => Cert.Chamfer.total (argP m c) (argQ m c) := by
  unfold Pipeline.afterTail₀
  show StableHlo.after hostOps1 _ (Proc.devRef .tc main_v13) = _
  after_results
  rw [(Pipeline.withArrays_arr spec0 launch0.win.arr_inj c _ _ 4).trans (final_o m c)]
  rfl

/-- THE RUN, READ.  Every weakly fair execution terminates with the scalar result at the whole sum and both arguments as
    launched. -/
theorem run : θ_run defs (onTc (τ := τ) (main (F := Ideal))) ⟨m, fun _ => 0, ρ⟩ fun r => ∀ c : Dev nD,
      r.2.mem ((c : Thread nD τ).loc main_v13) = (fun _ => Cert.Chamfer.total (argP m c) (argQ m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v13 (Pipeline.mem_restRefs_of main_v13 (by decide) (by decide))).trans (tail_value m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end AtIdeal

end Cert.KernelIdeal.RunValue

end
-- ==== Proof.RefTotal.lean ====
/-
  The reference program read down to the specification.  Its stages: the pairwise difference
  p[r, B, n, c] − q[r, B, m, c] on [2, 128, 256, 256, 4]; the real and the imaginary part each squared and the two added;
  channels 1, 2, 3 kept and summed into the distance tensor on [128, 256, 256]; the minimum of that tensor along its last
  axis (over m) and along its middle axis (over n), each a fold of `min` from +∞; the two minima added and summed over
  every (B, j).  Each stage is read at an index written by its coordinates; the zero each sum starts from is 0, so the
  scalar result is the specification's two-sided nearest-neighbour sum.
-/
import proofs.«171220_j87935160418423_1_alg».proof.Proof.Gen.ReferenceIdeal.Read
import proofs.«171220_j87935160418423_1_alg».proof.Proof.Spec
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx
  Cert.Chamfer

/-- An argument array, as the reference program types it. -/
abbrev Arg : Type := (⟨S2x128x256x4, .f32⟩ : BufTy).Contents (Elt Ideal)

/-- The pairwise difference at (r, B, n, m, c) is p[r, B, n, c] - q[r, B, m, c]. -/
theorem diff_at (p q : Arg) (r : Fin 2) (B : Fin 128) (n m : Fin 256) (c : Fin 4) :
    val_main_v4 (F := Ideal) p q (ix5 r B n m c) = p (ix4 r B n c) - q (ix4 r B m c) := by
  rw [val_main_v4_apply, val_main_v2_apply, val_main_v0_apply, val_main_v3_apply, val_main_v1_apply]
  have e0 : idx_main_v0 (idx_main_v2 (ix5 r B n m c)) = ix4 r B n c := by
    funext a
    match a with
    | ⟨0, _⟩ => rfl
    | ⟨1, _⟩ => rfl
    | ⟨2, _⟩ => rfl
    | ⟨3, _⟩ => rfl
  have e1 : idx_main_v1 (idx_main_v3 (ix5 r B n m c)) = ix4 r B m c := by
    funext a
    match a with
    | ⟨0, _⟩ => rfl
    | ⟨1, _⟩ => rfl
    | ⟨2, _⟩ => rfl
    | ⟨3, _⟩ => rfl
  rw [e0, e1]
  rfl

/-- The reshape's source index: the row-major position of (B, n, m, c) in [128, 256, 256, 4], read back in
    [1, 128, 256, 256, 4], is (0, B, n, m, c). -/
theorem unflatten_ix (B : Fin 128) (n m : Fin 256) (c : Fin 4) :
    idx_main_v6 (ix4 B n m c) = ix5 0 B n m c := by
  have hB := B.isLt
  have hn := n.isLt
  have hm := m.isLt
  have hc := c.isLt
  funext a
  refine Fin.ext ?_
  match a with
  | ⟨0, _⟩ => rfl
  | ⟨1, _⟩ =>
    show (((B.val * 256 + n.val) * 256 + m.val) * 4 + c.val) / 262144 % 128 = B.val
    omega
  | ⟨2, _⟩ =>
    show (((B.val * 256 + n.val) * 256 + m.val) * 4 + c.val) / 1024 % 256 = n.val
    omega
  | ⟨3, _⟩ =>
    show (((B.val * 256 + n.val) * 256 + m.val) * 4 + c.val) / 4 % 256 = m.val
    omega
  | ⟨4, _⟩ =>
    show (((B.val * 256 + n.val) * 256 + m.val) * 4 + c.val) % 4 = c.val
    omega

/-- The real part's slice keeps the leading coordinate 0. -/
theorem slice_re_ix (B : Fin 128) (n m : Fin 256) (c : Fin 4) :
    idx_main_v5 (ix5 0 B n m c) = ix5 0 B n m c := by
  funext a
  match a with
  | ⟨0, _⟩ => rfl
  | ⟨1, _⟩ => rfl
  | ⟨2, _⟩ => rfl
  | ⟨3, _⟩ => rfl
  | ⟨4, _⟩ => rfl

/-- The imaginary part's slice reads leading coordinate 1. -/
theorem slice_im_ix (B : Fin 128) (n m : Fin 256) (c : Fin 4) :
    idx_main_v10 (ix5 0 B n m c) = ix5 1 B n m c := by
  funext a
  match a with
  | ⟨0, _⟩ => rfl
  | ⟨1, _⟩ => rfl
  | ⟨2, _⟩ => rfl
  | ⟨3, _⟩ => rfl
  | ⟨4, _⟩ => rfl

/-- The real part of the difference, squared, at (B, n, m, c). -/
theorem re_sq_at (p q : Arg) (B : Fin 128) (n m : Fin 256) (c : Fin 4) :
    val_main_v9 (F := Ideal) p q (ix4 B n m c)
      = (p (ix4 0 B n c) - q (ix4 0 B m c)) * (p (ix4 0 B n c) - q (ix4 0 B m c)) := by
  have h6 : val_main_v6 (F := Ideal) p q (ix4 B n m c) = p (ix4 0 B n c) - q (ix4 0 B m c) := by
    rw [val_main_v6_apply, val_main_v5_apply, unflatten_ix, slice_re_ix, diff_at]
  have h8 : val_main_v8 (F := Ideal) p q (ix4 B n m c) = p (ix4 0 B n c) - q (ix4 0 B m c) := by
    rw [val_main_v8_apply, val_main_v7_apply]
    show val_main_v4 (F := Ideal) p q (idx_main_v5 (idx_main_v6 (ix4 B n m c))) = _
    rw [unflatten_ix, slice_re_ix, diff_at]
  rw [val_main_v9_apply, h6, h8]
  rfl

/-- The imaginary part of the difference, squared, at (B, n, m, c). -/
theorem im_sq_at (p q : Arg) (B : Fin 128) (n m : Fin 256) (c : Fin 4) :
    val_main_v14 (F := Ideal) p q (ix4 B n m c)
      = (p (ix4 1 B n c) - q (ix4 1 B m c)) * (p (ix4 1 B n c) - q (ix4 1 B m c)) := by
  have h11 : val_main_v11 (F := Ideal) p q (ix4 B n m c) = p (ix4 1 B n c) - q (ix4 1 B m c) := by
    rw [val_main_v11_apply, val_main_v10_apply]
    show val_main_v4 (F := Ideal) p q (idx_main_v10 (idx_main_v6 (ix4 B n m c))) = _
    rw [unflatten_ix, slice_im_ix, diff_at]
  have h13 : val_main_v13 (F := Ideal) p q (ix4 B n m c) = p (ix4 1 B n c) - q (ix4 1 B m c) := by
    rw [val_main_v13_apply, val_main_v12_apply]
    show val_main_v4 (F := Ideal) p q (idx_main_v10 (idx_main_v6 (ix4 B n m c))) = _
    rw [unflatten_ix, slice_im_ix, diff_at]
  rw [val_main_v14_apply, h11, h13]
  rfl

/-- The squared magnitude of the complex difference in kept channel k, at (B, n, m, k). -/
theorem mag_at (p q : Arg) (B : Fin 128) (n m : Fin 256) (k : Fin 3) :
    val_main_v16 (F := Ideal) p q (ix4 B n m k)
      = (p (ix4 0 B n (chan k)) - q (ix4 0 B m (chan k))) * (p (ix4 0 B n (chan k)) - q (ix4 0 B m (chan k)))
        + (p (ix4 1 B n (chan k)) - q (ix4 1 B m (chan k))) * (p (ix4 1 B n (chan k)) - q (ix4 1 B m (chan k))) := by
  have e : idx_main_v16 (ix4 B n m k) = ix4 B n m (chan k) := by
    funext a
    match a with
    | ⟨0, _⟩ => rfl
    | ⟨1, _⟩ => rfl
    | ⟨2, _⟩ => rfl
    | ⟨3, _⟩ => rfl
  rw [val_main_v16_apply, e, val_main_v15_apply, re_sq_at, im_sq_at]
  rfl

/-- The distance tensor at (B, n, m) is the specification's squared distance. -/
theorem dist_at (p q : Arg) (B : Fin 128) (n m : Fin 256) :
    val_main_v17 (F := Ideal) p q (ix3 B n m) = Cert.Chamfer.dist p q B n m := by
  rw [val_main_v17_apply]
  have e : ∀ k : Fin 3, idx_main_v17 (ix3 B n m) k = ix4 B n m k := by
    intro k
    funext a
    match a with
    | ⟨0, _⟩ => rfl
    | ⟨1, _⟩ => rfl
    | ⟨2, _⟩ => rfl
    | ⟨3, _⟩ => rfl
  have h0 : val_main_cst (F := Ideal) (Shape.Idx.first h_S_) = 0 := Ideal.ofBits_zero_f32
  rw [h0, zero_add]
  unfold Cert.Chamfer.dist
  refine Finset.sum_congr rfl fun k _ => ?_
  rw [e k, mag_at]

/-- The row minimum at (B, j): the minimum over the second point index m of the distance at (B, j, m). -/
theorem rowmin_at (p q : Arg) (B : Fin 128) (j : Fin 256) :
    val_main_v18 (F := Ideal) p q (ix2 B j) = minOver fun m => Cert.Chamfer.dist p q B j m := by
  have h : S128x256x256.Reduces [2] S128x256 := by decide
  unfold val_main_v18
  refine (Host.reduce_eq_fold_single (FloatOps.minimumf (F := Ideal) (φ := .f32)) (val_main_v17 (F := Ideal) p q)
    (val_main_cst_0 (F := Ideal)) reducesTo_S128x256x256_S128x256_d2 h h_S_ (ix2 B j)).trans ?_
  unfold minOver
  have e : (val_main_v17 (F := Ideal) p q ∘ h.lift (ix2 B j)) = fun m : Fin 256 => Cert.Chamfer.dist p q B j m := by
    refine funext fun (m : Fin 256) => ?_
    have em : h.lift (ix2 B j) m = ix3 B j m := by
      funext a
      match a with
      | ⟨0, _⟩ => rfl
      | ⟨1, _⟩ => rfl
      | ⟨2, _⟩ => rfl
    show val_main_v17 (F := Ideal) p q (h.lift (ix2 B j) m) = _
    rw [em, dist_at]
  rw [e]
  rfl

/-- The column minimum at (B, j): the minimum over the first point index n of the distance at (B, n, j). -/
theorem colmin_at (p q : Arg) (B : Fin 128) (j : Fin 256) :
    val_main_v19 (F := Ideal) p q (ix2 B j) = minOver fun n => Cert.Chamfer.dist p q B n j := by
  have h : S128x256x256.Reduces [1] S128x256 := by decide
  unfold val_main_v19
  refine (Host.reduce_eq_fold_single (FloatOps.minimumf (F := Ideal) (φ := .f32)) (val_main_v17 (F := Ideal) p q)
    (val_main_cst_1 (F := Ideal)) reducesTo_S128x256x256_S128x256_d1 h h_S_ (ix2 B j)).trans ?_
  unfold minOver
  have e : (val_main_v17 (F := Ideal) p q ∘ h.lift (ix2 B j)) = fun n : Fin 256 => Cert.Chamfer.dist p q B n j := by
    refine funext fun (n : Fin 256) => ?_
    have en : h.lift (ix2 B j) n = ix3 B n j := by
      funext a
      match a with
      | ⟨0, _⟩ => rfl
      | ⟨1, _⟩ => rfl
      | ⟨2, _⟩ => rfl
    show val_main_v17 (F := Ideal) p q (h.lift (ix2 B j) n) = _
    rw [en, dist_at]
  rw [e]
  rfl

/-- The reference's scalar result is the two-sided nearest-neighbour sum. -/
theorem ref_total (p q : (⟨Cert.ReferenceIdeal.S2x128x256x4, .f32⟩ : BufTy).Contents (Elt Ideal)) (i : Cert.ReferenceIdeal.S_.Idx) :
    Cert.ReferenceIdeal.Read.val_main_v21 (F := Ideal) p q i = Cert.Chamfer.total p q := by
  rw [val_main_v21_apply]
  have h0 : val_main_cst_2 (F := Ideal) (Shape.Idx.first h_S_) = 0 := Ideal.ofBits_zero_f32
  rw [h0, zero_add, sum_idx2]
  unfold Cert.Chamfer.total
  refine Finset.sum_congr rfl fun B _ => Finset.sum_congr rfl fun j _ => ?_
  rw [val_main_v20_apply, rowmin_at, colmin_at]
  rfl

end Cert.ReferenceIdeal.RefValue

end
-- ==== Proof.lean ====
/-
  The certificate: the kernel and the reference compute the same two-sided nearest-neighbour sum.

  For two arrays of 128 batches of 256 points with complex channels, both programs compute, over the extended reals,

      ∑ B, ∑ j, ( min_m dist B j m + min_n dist B n j ),   dist B n m = ∑ k < 3, |p[B,n,1+k] − q[B,m,1+k]|²,

  each minimum a fold of `min` from +∞.  The reference does it in one piece (its stages read index by index); the kernel
  tile by tile over the batches, summing row minima and column minima separately and accumulating the tiles in order.
  Only commutativity and associativity of the extended reals' addition relate the two groupings, so the precondition is
  never opened.  The three frames are the generated ones (the reference's is its run with the result dropped), and the
  idealization rewrote nothing.
-/
import proofs.«171220_j87935160418423_1_alg».proof.Defs
import proofs.«171220_j87935160418423_1_alg».proof.Proof.Gen.Kernel
import proofs.«171220_j87935160418423_1_alg».proof.Proof.Gen.Kernel.Skeleton
import proofs.«171220_j87935160418423_1_alg».proof.Proof.Gen.Kernel.Launch
import proofs.«171220_j87935160418423_1_alg».proof.Proof.Gen.Kernel.Points
import proofs.«171220_j87935160418423_1_alg».proof.Proof.Gen.Kernel.Frame
import proofs.«171220_j87935160418423_1_alg».proof.Proof.Gen.KernelIdeal
import proofs.«171220_j87935160418423_1_alg».proof.Proof.Gen.KernelIdeal.Skeleton
import proofs.«171220_j87935160418423_1_alg».proof.Proof.Gen.KernelIdeal.Launch
import proofs.«171220_j87935160418423_1_alg».proof.Proof.Gen.KernelIdeal.Points
import proofs.«171220_j87935160418423_1_alg».proof.Proof.Gen.KernelIdeal.Frame
import proofs.«171220_j87935160418423_1_alg».proof.Proof.Gen.ReferenceIdeal
import proofs.«171220_j87935160418423_1_alg».proof.Proof.Gen.Pre_finite_inputs
import proofs.«171220_j87935160418423_1_alg».proof.Proof.Gen.ReferenceIdeal.Run
import proofs.«171220_j87935160418423_1_alg».proof.Proof.Gen.ReferenceIdeal.Read
import proofs.«171220_j87935160418423_1_alg».proof.Proof.KernelValue
import proofs.«171220_j87935160418423_1_alg».proof.Proof.RefTotal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end at the two-sided nearest-neighbour sum of arguments that agree. -/
theorem algebraic : Cert.algebraic_KernelIdeal_ReferenceIdeal := by
  intro m ρ m' ρ' _ hagree
  refine ⟨fun c => fun _ => Cert.Chamfer.total (Cert.KernelIdeal.RunValue.argP m c) (Cert.KernelIdeal.RunValue.argQ m c),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2]
  exact funext fun i => Cert.ReferenceIdeal.RefValue.ref_total _ _ i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
